-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S64x640 : Shape := ⟨2, ![64, 640]⟩
abbrev S64 : Shape := ⟨1, ![64]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S64x640 : S_.BroadcastsInDim S64x640 (![] : Fin 0 → Fin S64x640.rank)
  reducesTo_S64x640_S_d0_1 : S64x640.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S64x1024x128 .f32) (main_arg1 : FVec F S64x640 .f32) (main_arg2 : FVec F S64 .f32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_v4 : FVec F S64x640 .f32 := Host.absf main_arg1
  let main_cst_0 : FVec F S_ .f32 := constant S_ .f32 0x7F800000#32
  let main_v5 : FVec F S64x640 .f32 := broadcastInDim S64x640 ![] bcast_S_S64x640 main_cst_0
  let main_v6 : IVec S64x640 1 := cmpf .olt main_v4 main_v5
  let main_c_1 : IVec S_ 1 := constantI S_ 1 1#1
  let main_v7 : IVec S_ 1 := (fun x v => Host.reduce IntOp.andi x v reducesTo_S64x640_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S64x1024x128 : Shape := ⟨3, ![64, 1024, 128]⟩
abbrev S64x640 : Shape := ⟨2, ![64, 640]⟩
abbrev S64 : Shape := ⟨1, ![64]⟩
abbrev S_ : Shape := ⟨0, ![]⟩
abbrev S64x1028x128 : Shape := ⟨3, ![64, 1028, 128]⟩
abbrev S64x5x128 : Shape := ⟨3, ![64, 5, 128]⟩
abbrev S5x64x128 : Shape := ⟨3, ![5, 64, 128]⟩
abbrev S64x1 : Shape := ⟨2, ![64, 1]⟩
abbrev S64x64x1024 : Shape := ⟨3, ![64, 64, 1024]⟩
abbrev S8x1028x128 : Shape := ⟨3, ![8, 1028, 128]⟩
abbrev S8x64x1024 : Shape := ⟨3, ![8, 64, 1024]⟩
abbrev S1x1028x128 : Shape := ⟨3, ![1, 1028, 128]⟩
abbrev S1028x128 : Shape := ⟨2, ![1028, 128]⟩
abbrev S64x1024 : Shape := ⟨2, ![64, 1024]⟩
abbrev S1024x128 : Shape := ⟨2, ![1024, 128]⟩
abbrev S1x64x128 : Shape := ⟨3, ![1, 64, 128]⟩
abbrev S64x128 : Shape := ⟨2, ![64, 128]⟩
abbrev S1x64x1024 : Shape := ⟨3, ![1, 64, 1024]⟩

abbrev nBuf : Space → Nat
  | .hbm => 10
  | .vmem => 6
  | .smem => 0
  | _ => 0

abbrev bufTy : (tb : Table) → Fin (tcTables nBuf tb) → BufTy
  | .hbm, ⟨0, _⟩ => ⟨S64x1024x128, .f32⟩
  | .hbm, ⟨1, _⟩ => ⟨S64x640, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S64x1028x128, .f32⟩
  | .hbm, ⟨6, _⟩ => ⟨S64x5x128, .f32⟩
  | .hbm, ⟨7, _⟩ => ⟨S5x64x128, .f32⟩
  | .hbm, ⟨8, _⟩ => ⟨S64x1, .f32⟩
  | .hbm, ⟨9, _⟩ => ⟨S64x64x1024, .f32⟩
  | .local _ .vmem, ⟨0, _⟩ => ⟨S8x1028x128, .f32⟩
  | .local _ .vmem, ⟨1, _⟩ => ⟨S8x1028x128, .f32⟩
  | .local _ .vmem, ⟨2, _⟩ => ⟨S5x64x128, .f32⟩
  | .local _ .vmem, ⟨3, _⟩ => ⟨S64x1, .f32⟩
  | .local _ .vmem, ⟨4, _⟩ => ⟨S8x64x1024, .f32⟩
  | .local _ .vmem, ⟨5, _⟩ => ⟨S8x64x1024, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1028x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S64x1024x128_S64x1028x128_000_220_000 : S64x1024x128.Pads (![0, 2, 0] : Fin 3 → Nat) ![0, 2, 0] ![0, 0, 0] S64x1028x128
  h_S_ : 0 < S_.numel
  shapeCasts_S64x640_S64x5x128 : S64x640.ShapeCasts S64x5x128
  transposes_S64x5x128_S5x64x128_1_0_2 : S64x5x128.Transposes [1, 0, 2] S5x64x128
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S8x1028x128_S1x1028x128_0_0_0 : ∀ a, (![0, 0, 0] : Fin 3 → Nat) a + S1x1028x128.size a ≤ S8x1028x128.size a
  h_S1x1028x128 : 0 < S1x1028x128.numel
  shapeCasts_S1x1028x128_S1028x128 : S1x1028x128.ShapeCasts S1028x128
  bitsLt_bf16_f32 : FTy.bits .bf16 < FTy.bits .f32
  slices_S1028x128_o0_0_S1024x128 : S1028x128.Slices ![0, 0] S1024x128
  inb_S5x64x128_S1x64x128_0_0_0 : ∀ a, (![0, 0, 0] : Fin 3 → Nat) a + S1x64x128.size a ≤ S5x64x128.size a
  h_S1x64x128 : 0 < S1x64x128.numel
  shapeCasts_S1x64x128_S64x128 : S1x64x128.ShapeCasts S64x128
  slices_S1028x128_o1_0_S1024x128 : S1028x128.Slices ![1, 0] S1024x128
  inb_S5x64x128_S1x64x128_1_0_0 : ∀ a, (![1, 0, 0] : Fin 3 → Nat) a + S1x64x128.size a ≤ S5x64x128.size a
  slices_S1028x128_o2_0_S1024x128 : S1028x128.Slices ![2, 0] S1024x128
  inb_S5x64x128_S1x64x128_2_0_0 : ∀ a, (![2, 0, 0] : Fin 3 → Nat) a + S1x64x128.size a ≤ S5x64x128.size a
  slices_S1028x128_o3_0_S1024x128 : S1028x128.Slices ![3, 0] S1024x128
  inb_S5x64x128_S1x64x128_3_0_0 : ∀ a, (![3, 0, 0] : Fin 3 → Nat) a + S1x64x128.size a ≤ S5x64x128.size a
  slices_S1028x128_o4_0_S1024x128 : S1028x128.Slices ![4, 0] S1024x128
  inb_S5x64x128_S1x64x128_4_0_0 : ∀ a, (![4, 0, 0] : Fin 3 → Nat) a + S1x64x128.size a ≤ S5x64x128.size a
  broadcasts_S64x1_S64x1024 : S64x1.Broadcasts S64x1024
  inb_S8x64x1024_S1x64x1024_0_0_0 : ∀ a, (![0, 0, 0] : Fin 3 → Nat) a + S1x64x1024.size a ≤ S8x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S8x1028x128_S1x1028x128_1_0_0 : ∀ a, (![1, 0, 0] : Fin 3 → Nat) a + S1x1028x128.size a ≤ S8x1028x128.size a
  inb_S8x64x1024_S1x64x1024_1_0_0 : ∀ a, (![1, 0, 0] : Fin 3 → Nat) a + S1x64x1024.size a ≤ S8x64x1024.size a
  inb_S8x1028x128_S1x1028x128_2_0_0 : ∀ a, (![2, 0, 0] : Fin 3 → Nat) a + S1x1028x128.size a ≤ S8x1028x128.size a
  inb_S8x64x1024_S1x64x1024_2_0_0 : ∀ a, (![2, 0, 0] : Fin 3 → Nat) a + S1x64x1024.size a ≤ S8x64x1024.size a
  inb_S8x1028x128_S1x1028x128_3_0_0 : ∀ a, (![3, 0, 0] : Fin 3 → Nat) a + S1x1028x128.size a ≤ S8x1028x128.size a
  inb_S8x64x1024_S1x64x1024_3_0_0 : ∀ a, (![3, 0, 0] : Fin 3 → Nat) a + S1x64x1024.size a ≤ S8x64x1024.size a
  inb_S8x1028x128_S1x1028x128_4_0_0 : ∀ a, (![4, 0, 0] : Fin 3 → Nat) a + S1x1028x128.size a ≤ S8x1028x128.size a
  inb_S8x64x1024_S1x64x1024_4_0_0 : ∀ a, (![4, 0, 0] : Fin 3 → Nat) a + S1x64x1024.size a ≤ S8x64x1024.size a
  inb_S8x1028x128_S1x1028x128_5_0_0 : ∀ a, (![5, 0, 0] : Fin 3 → Nat) a + S1x1028x128.size a ≤ S8x1028x128.size a
  inb_S8x64x1024_S1x64x1024_5_0_0 : ∀ a, (![5, 0, 0] : Fin 3 → Nat) a + S1x64x1024.size a ≤ S8x64x1024.size a
  inb_S8x1028x128_S1x1028x128_6_0_0 : ∀ a, (![6, 0, 0] : Fin 3 → Nat) a + S1x1028x128.size a ≤ S8x1028x128.size a
  inb_S8x64x1024_S1x64x1024_6_0_0 : ∀ a, (![6, 0, 0] : Fin 3 → Nat) a + S1x64x1024.size a ≤ S8x64x1024.size a
  inb_S8x1028x128_S1x1028x128_7_0_0 : ∀ a, (![7, 0, 0] : Fin 3 → Nat) a + S1x1028x128.size a ≤ S8x1028x128.size a
  inb_S8x64x1024_S1x64x1024_7_0_0 : ∀ a, (![7, 0, 0] : Fin 3 → Nat) a + S1x64x1024.size a ≤ S8x64x1024.size a
  dot_S64x128_S1024x128_S64x1024_1_1_0_0_n_n_wf : DotDims.WF S64x128 S1024x128 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1028x128.size a ≤ S64x1028x128.size a
  hwx0_0 : ∀ i : grid0.Coords, EltTy.bits .f32 = 32 ∨ (Rect.block (s := S64x1028x128) S8x1028x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64x128.size a ≤ S5x64x128.size a
  hwx0_1 : ∀ i : grid0.Coords, EltTy.bits .f32 = 32 ∨ (Rect.block (s := S5x64x128) S5x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64x1024.size a ≤ S64x64x1024.size a
  hwx0_3 : ∀ i : grid0.Coords, EltTy.bits .f32 = 32 ∨ (Rect.block (s := S64x64x1024) S8x64x1024.size (cc0_transform_3 i) (hinb0_3 i)).WholeWords (EltTy.packing .f32)

variable [Facts₀]

def dot_S64x128_S1024x128_S64x1024_1_1_0_0_n_n : DotDims S64x128 S1024x128 S64x1024 where
  lhsContracting := [1]
  rhsContracting := [1]
  lhsNonContracting := [0]
  rhsNonContracting := [0]
  lhsBatch := []
  rhsBatch := []
  wf := dot_S64x128_S1024x128_S64x1024_1_1_0_0_n_n_wf

abbrev win0_0 : Pipeline.Window sig grid0 :=
  Pipeline.Window.ofSpec (Memref.whole main_v0) S8x1028x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x128 : Shape := ⟨3, ![64, 1024, 128]⟩
abbrev S64x640 : Shape := ⟨2, ![64, 640]⟩
abbrev S64 : Shape := ⟨1, ![64]⟩
abbrev S_ : Shape := ⟨0, ![]⟩
abbrev S64x1028x128 : Shape := ⟨3, ![64, 1028, 128]⟩
abbrev S64x1024x1x128 : Shape := ⟨4, ![64, 1024, 1, 128]⟩
abbrev S64x1024x5x128 : Shape := ⟨4, ![64, 1024, 5, 128]⟩
abbrev S64x1024x640 : Shape := ⟨3, ![64, 1024, 640]⟩
abbrev S64x64x1024 : Shape := ⟨3, ![64, 64, 1024]⟩
abbrev S1x64x1 : Shape := ⟨3, ![1, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S64x1024x128, .f32⟩
  | .hbm, ⟨1, _⟩ => ⟨S64x640, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S64x1028x128, .f32⟩
  | .hbm, ⟨6, _⟩ => ⟨S64x1024x128, .f32⟩
  | .hbm, ⟨7, _⟩ => ⟨S64x1024x128, .f32⟩
  | .hbm, ⟨8, _⟩ => ⟨S64x1024x128, .f32⟩
  | .hbm, ⟨9, _⟩ => ⟨S64x1024x128, .f32⟩
  | .hbm, ⟨10, _⟩ => ⟨S64x1024x128, .f32⟩
  | .hbm, ⟨11, _⟩ => ⟨S64x1024x1x128, .f32⟩
  | .hbm, ⟨12, _⟩ => ⟨S64x1024x1x128, .f32⟩
  | .hbm, ⟨13, _⟩ => ⟨S64x1024x1x128, .f32⟩
  | .hbm, ⟨14, _⟩ => ⟨S64x1024x1x128, .f32⟩
  | .hbm, ⟨15, _⟩ => ⟨S64x1024x1x128, .f32⟩
  | .hbm, ⟨16, _⟩ => ⟨S64x1024x5x128, .f32⟩
  | .hbm, ⟨17, _⟩ => ⟨S64x1024x640, .f32⟩
  | .hbm, ⟨18, _⟩ => ⟨S64x64x1024, .f32⟩
  | .hbm, ⟨19, _⟩ => ⟨S64x64x1024, .f32⟩
  | .hbm, ⟨20, _⟩ => ⟨S1x64x1, .f32⟩
  | .hbm, ⟨21, _⟩ => ⟨S64x64x1024, .f32⟩
  | .hbm, ⟨22, _⟩ => ⟨S64x64x1024, .f32⟩
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  pads_S64x1024x128_S64x1028x128_000_220_000 : S64x1024x128.Pads (![0, 2, 0] : Fin 3 → Nat) ![0, 2, 0] ![0, 0, 0] S64x1028x128
  h_S_ : 0 < S_.numel
  slices_S64x1028x128_S64x1024x128_0_0_0 : S64x1028x128.Slices ![0, 0, 0] S64x1024x128
  slices_S64x1028x128_S64x1024x128_0_1_0 : S64x1028x128.Slices ![0, 1, 0] S64x1024x128
  slices_S64x1028x128_S64x1024x128_0_2_0 : S64x1028x128.Slices ![0, 2, 0] S64x1024x128
  slices_S64x1028x128_S64x1024x128_0_3_0 : S64x1028x128.Slices ![0, 3, 0] S64x1024x128
  slices_S64x1028x128_S64x1024x128_0_4_0 : S64x1028x128.Slices ![0, 4, 0] S64x1024x128
  bcast_S64x1024x128_S64x1024x1x128_0_1_3 : S64x1024x128.BroadcastsInDim S64x1024x1x128 (![0, 1, 3] : Fin 3 → Fin S64x1024x1x128.rank)
  concatenates_S64x1024x1x128_S64x1024x1x128_S64x1024x1x128_S64x1024x1x128_S64x1024x1x128_S64x1024x5x128_d2 : Shape.Concatenates [S64x1024x1x128, S64x1024x1x128, S64x1024x1x128, S64x1024x1x128, S64x1024x1x128] S64x1024x5x128 2
  shapeCasts_S64x1024x5x128_S64x1024x640 : S64x1024x5x128.ShapeCasts S64x1024x640
  transposes_S64x64x1024_S64x64x1024_1_0_2 : S64x64x1024.Transposes [1, 0, 2] S64x64x1024
  bcast_S64_S1x64x1_1 : S64.BroadcastsInDim S1x64x1 (![1] : Fin 1 → Fin S1x64x1.rank)
  bcast_S1x64x1_S64x64x1024_0_1_2 : S1x64x1.BroadcastsInDim S64x64x1024 (![0, 1, 2] : Fin 3 → Fin S64x64x1024.rank)
  dot_S64x640_S64x1024x640_S64x64x1024_1_2_0_01_n_n_wf : DotDims.WF S64x640 S64x1024x640 S64x64x1024 [1] [2] [0] [0, 1] [] []

variable [Facts₀]

def dot_S64x640_S64x1024x640_S64x64x1024_1_2_0_01_n_n : DotDims S64x640 S64x1024x640 S64x64x1024 where
  lhsContracting := [1]
  rhsContracting := [2]
  lhsNonContracting := [0]
  rhsNonContracting := [0, 1]
  lhsBatch := []
  rhsBatch := []
  wf := dot_S64x640_S64x1024x640_S64x64x1024_1_2_0_01_n_n_wf

class Facts : Prop extends Facts₀ where

variable [Facts]
-- ==== Proof.ConvSpec.lean ====
/-
  The function both programs compute, stated once over the zero-padded input.

  With `xp` the input padded by two zero rows on each side of the position axis (shape [64, 1028, 128]),
  `W` the filter bank [64, 640] whose column `c * 128 + e` is lane `e` of tap `c`, and `b` the bias [64]:

      conv xp W b (n, f, t) = (Σ_{c < 5} Σ_{e < 128} W (f, c * 128 + e) * xp (n, c + t, e)) + b f

  a five-tap convolution along the position axis, full height over the 128 lanes, on the extended reals.
  The only law needed to meet a contraction written over the 640 flat columns is that a sum over `Fin 640`
  is the double sum over taps and lanes (`sum_col`): a re-indexing of a finite sum in a commutative monoid,
  which holds on the extended reals with no finiteness assumption.
-/
import Idealize.ShloMosaic.PureOps.Ideal
import Idealize.ShloMosaic.Lib.ValueIdx

noncomputable section

open scoped BigOperators

namespace Cert.ConvSpec

open Idealize.ShloMosaic Idealize.ShloMosaic.ValueIdx

/-- The flat filter column of tap `c`, lane `e`. -/
def col (c : Fin 5) (e : Fin 128) : Fin 640 := ⟨c.val * 128 + e.val, by have := c.isLt; have := e.isLt; omega⟩

/-- Position `t` seen through tap `c`: a row of the padded position axis. -/
def tapPos (t : Fin 1024) (c : Fin 5) : Fin 1028 := ⟨c.val + t.val, by have := c.isLt; have := t.isLt; omega⟩

@[simp] theorem col_val (c : Fin 5) (e : Fin 128) : (col c e).val = c.val * 128 + e.val := rfl
@[simp] theorem tapPos_val (t : Fin 1024) (c : Fin 5) : (tapPos t c).val = c.val + t.val := rfl

/-- The five-tap convolution plus bias, index by index. -/
def conv (xp : (⟨3, ![64, 1028, 128]⟩ : Shape).Idx → EReal) (W : (⟨2, ![64, 640]⟩ : Shape).Idx → EReal)
    (b : (⟨1, ![64]⟩ : Shape).Idx → EReal) : (⟨3, ![64, 64, 1024]⟩ : Shape).Idx → EReal :=
  fun i => (∑ c : Fin 5, ∑ e : Fin 128, W (ix2 (i 1) (col c e)) * xp (ix3 (i 0) (tapPos (i 2) c) e)) + b (ix1 (i 1))

/-- Taps and lanes enumerate the 640 flat columns: `(c, e) ↦ c * 128 + e` is a bijection. -/
def colEquiv : Fin 5 × Fin 128 ≃ Fin 640 where
  toFun p := col p.1 p.2
  invFun k := (⟨k.val / 128, by have := k.isLt; omega⟩, ⟨k.val % 128, Nat.mod_lt _ (by decide)⟩)
  left_inv p := by
    obtain ⟨c, e⟩ := p
    have hc := c.isLt; have he := e.isLt
    refine Prod.ext (Fin.ext ?_) (Fin.ext ?_)
    · show (c.val * 128 + e.val) / 128 = c.val; omega
    · show (c.val * 128 + e.val) % 128 = e.val; omega
  right_inv k := by
    refine Fin.ext ?_
    show k.val / 128 * 128 + k.val % 128 = k.val
    omega

/-- A sum over the 640 flat columns is the sum over taps of the sum over lanes. -/
theorem sum_col {M : Type*} [AddCommMonoid M] (g : Fin 640 → M) :
    ∑ k, g k = ∑ c : Fin 5, ∑ e : Fin 128, g (col c e) := by
  rw [← Equiv.sum_comp colEquiv g, Fintype.sum_prod_type]
  rfl

end Cert.ConvSpec

end
-- ==== Proof.ConvRow.lean ====
/-
  One batch row of the kernel's block.

  For each of the eight batch rows of a block the body does the same thing: it takes the row's padded
  positions `xr` [1, 1028, 128], and for each tap `c` multiplies the tap's weights `w_c` [1, 64, 128] against the
  window of 1024 positions starting at row `c` of `xr`, contracting the 128 lanes; the five products are added
  onto a zero splat, the bias column is added, and the [64, 1024] result is stored as the row.
  `rowOut` is that computation written once; the eight stores' payloads are `rowOut` of their row
  (`row0_eq` … `row7_eq`, by unfolding). On the extended reals, where a change of float format is the identity
  and a product into a zero accumulator is the plain sum of products, its element `(f, t)` is

      (Σ_e w₀ (f, e) · xr (0 + t, e)) + … + (Σ_e w₄ (f, e) · xr (4 + t, e)) + bias f

  (`rowOut_apply`): the zero splat is the additive unit.
-/
import proofs.«160847_j54116587929806_1_alg».proof.Proof.Gen.KernelIdeal.Frame
import proofs.«160847_j54116587929806_1_alg».proof.Proof.ConvSpec
import Idealize.ShloMosaic.Lib.Pipeline.Value
import Idealize.ShloMosaic.Lib.ValueIdx
import Idealize.ShloMosaic.PureOps.Ideal.Laws

noncomputable section

open scoped BigOperators

namespace Cert.KernelIdeal.ConvRow

open Cert.KernelIdeal Cert.KernelIdeal.Gen Idealize.ShloMosaic Idealize.ShloMosaic.ValueIdx
open Cert.ConvSpec

section AnyInstance

variable {F : FTy → Type} [FloatOps F]

/-- One tap: the tap's weights against the 1024 positions of the row starting at offset `off`, lanes contracted. -/
def tap (xr : Vec F S1x1028x128 .f32) (w : Vec F S1x64x128 .f32) (off : Fin 2 → Nat)
    (h : S1028x128.Slices off S1024x128) : FVec F S64x1024 .f32 :=
  matmul dot_S64x128_S1024x128_S64x1024_1_1_0_0_n_n none
    (truncf .bf16 (shapeCast S64x128 w shapeCasts_S1x64x128_S64x128) bitsLt_bf16_f32)
    (extractStridedSlice S1024x128 off
      (truncf .bf16 (shapeCast S1028x128 xr shapeCasts_S1x1028x128_S1028x128) bitsLt_bf16_f32) h)
    (constant S64x1024 .f32 0x00000000#32)

/-- A row of the block: the five taps summed onto a zero splat, plus the bias column, as a [1, 64, 1024] piece. -/
def rowOut (bias : Vec F S64x1 .f32) (xr : Vec F S1x1028x128 .f32)
    (w0 w1 w2 w3 w4 : Vec F S1x64x128 .f32) : FVec F S1x64x1024 .f32 :=
  shapeCast S1x64x1024
    (addf
      (addf (addf (addf (addf (addf (broadcast S64x1024 (Scalar.ofBits .f32 0x00000000#32))
        (tap xr w0 ![0, 0] slices_S1028x128_o0_0_S1024x128))
        (tap xr w1 ![1, 0] slices_S1028x128_o1_0_S1024x128))
        (tap xr w2 ![2, 0] slices_S1028x128_o2_0_S1024x128))
        (tap xr w3 ![3, 0] slices_S1028x128_o3_0_S1024x128))
        (tap xr w4 ![4, 0] slices_S1028x128_o4_0_S1024x128))
      (broadcastTo S64x1024 (shapeCast S64x1 bias shapeCasts_S64x1_S64x1) broadcasts_S64x1_S64x1024))
    shapeCasts_S64x1024_S1x64x1024

variable (b : Vec F S64x1 .f32) (x : Vec F S1x1028x128 .f32) (w0 w1 w2 w3 w4 : Vec F S1x64x128 .f32)

/-- The eight stores' payloads are each `rowOut` of their own row: the payload terms are cut at different
    places, and unfold to the same operations. -/
theorem row0_eq : k0_pay6 (k0_pay1 b) (k0_pay3 x w0 w1 w2 w3) (k0_pay4 x) (k0_pay5 w4) = rowOut b x w0 w1 w2 w3 w4 := rfl
theorem row1_eq : k0_pay9 (k0_pay1 b) (k0_pay7 x) (k0_pay8 x w0 w1 w2 w3) w4 = rowOut b x w0 w1 w2 w3 w4 := rfl
theorem row2_eq : k0_pay13 (k0_pay1 b) (k0_pay10 x) (k0_pay11 x w0 w1 w2) (k0_pay12 x) w3 w4 = rowOut b x w0 w1 w2 w3 w4 := rfl
theorem row3_eq : k0_pay18 (k0_pay1 b) (k0_pay14 x) (k0_pay15 x w0 w1) (k0_pay16 x) (k0_pay17 w2) w3 w4 = rowOut b x w0 w1 w2 w3 w4 := rfl
theorem row4_eq : k0_pay22 (k0_pay1 b) (k0_pay19 x) (k0_pay20 x w0) (k0_pay21 x w1) w2 w3 w4 = rowOut b x w0 w1 w2 w3 w4 := rfl
theorem row5_eq : k0_pay26 (k0_pay1 b) (k0_pay23 x) (k0_pay24 x w0) (k0_pay25 x) w1 w2 w3 w4 = rowOut b x w0 w1 w2 w3 w4 := rfl
theorem row6_eq : k0_pay30 (k0_pay1 b) (k0_pay27 x) (k0_pay28 (F := F)) (k0_pay29 x) w0 w1 w2 w3 w4 = rowOut b x w0 w1 w2 w3 w4 := rfl
theorem row7_eq : k0_pay32 (k0_pay1 b) (k0_pay31 x) w0 w1 w2 w3 w4 = rowOut b x w0 w1 w2 w3 w4 := rfl

end AnyInstance

/-! ## The contraction's operand indices -/

theorem lhs_ax0 (i : S64x1024.Idx) (q : dot_S64x128_S1024x128_S64x1024_1_1_0_0_n_n.contr.Idx) :
    (dot_S64x128_S1024x128_S64x1024_1_1_0_0_n_n.lhsIdx i q 0).val = (i 0).val := by
  unfold DotDims.lhsIdx
  rw [dif_neg (show ¬(0 : Fin S64x128.rank) ∈ dot_S64x128_S1024x128_S64x1024_1_1_0_0_n_n.lhsBatch by decide), dif_pos (show (0 : Fin S64x128.rank) ∈ dot_S64x128_S1024x128_S64x1024_1_1_0_0_n_n.lhsNonContracting by decide)]
  rfl
theorem lhs_ax1 (i : S64x1024.Idx) (q : dot_S64x128_S1024x128_S64x1024_1_1_0_0_n_n.contr.Idx) :
    (dot_S64x128_S1024x128_S64x1024_1_1_0_0_n_n.lhsIdx i q 1).val = (q ⟨0, by decide⟩).val :=
  dot_S64x128_S1024x128_S64x1024_1_1_0_0_n_n.lhsIdx_val_of_single rfl i q
theorem rhs_ax0 (i : S64x1024.Idx) (q : dot_S64x128_S1024x128_S64x1024_1_1_0_0_n_n.contr.Idx) :
    (dot_S64x128_S1024x128_S64x1024_1_1_0_0_n_n.rhsIdx i q 0).val = (i 1).val := by
  unfold DotDims.rhsIdx
  rw [dif_neg (show ¬(0 : Fin S1024x128.rank) ∈ dot_S64x128_S1024x128_S64x1024_1_1_0_0_n_n.rhsBatch by decide), dif_pos (show (0 : Fin S1024x128.rank) ∈ dot_S64x128_S1024x128_S64x1024_1_1_0_0_n_n.rhsNonContracting by decide)]
  rfl
theorem rhs_ax1 (i : S64x1024.Idx) (q : dot_S64x128_S1024x128_S64x1024_1_1_0_0_n_n.contr.Idx) :
    (dot_S64x128_S1024x128_S64x1024_1_1_0_0_n_n.rhsIdx i q 1).val = (q ⟨0, by decide⟩).val :=
  dot_S64x128_S1024x128_S64x1024_1_1_0_0_n_n.rhsIdx_val_of_single rfl i q

/-! ## A tap and a row at an index, on the extended reals -/

/-- Tap `c` at filter `f`, position `t`: the lanes' products of the tap's weights with padded row `c + t`. -/
theorem tap_apply (xr : Vec Ideal S1x1028x128 .f32) (w : Vec Ideal S1x64x128 .f32) (c : Fin 5)
    (h : S1028x128.Slices ![c.val, 0] S1024x128) (f : Fin 64) (t : Fin 1024) :
    tap (F := Ideal) xr w ![c.val, 0] h (ix2 f t)
      = ∑ e : Fin 128, w (ix3 (0 : Fin 1) f e) * xr (ix3 (0 : Fin 1) (tapPos t c) e) := by
  unfold tap
  simp only [matmul]
  rw [Ideal.matmul_constant_zero_apply, ← Equiv.sum_comp (contrEquiv1 dot_S64x128_S1024x128_S64x1024_1_1_0_0_n_n 128 rfl rfl).symm]
  refine Finset.sum_congr rfl fun e _ => ?_
  have hk := contrEquiv1_symm_val dot_S64x128_S1024x128_S64x1024_1_1_0_0_n_n 128 rfl rfl e
  generalize (contrEquiv1 dot_S64x128_S1024x128_S64x1024_1_1_0_0_n_n 128 rfl rfl).symm e = q at hk ⊢
  refine congrArg₂ (fun a b : EReal => a * b) ?_ ?_
  · refine (shapeCast_dropUnit_apply ![64, 128] w shapeCasts_S1x64x128_S64x128 _).trans (congrArg w (funext fun a => Fin.ext ?_))
    match a with
    | ⟨0, _⟩ => rfl
    | ⟨1, _⟩ => exact lhs_ax0 (ix2 f t) q
    | ⟨2, _⟩ => exact (lhs_ax1 (ix2 f t) q).trans hk
  · refine (extractStridedSlice_apply ![c.val, 0] _ h _ (ix2 (tapPos t c) e) (fun a => ?_)).trans ?_
    · match a with
      | ⟨0, _⟩ => exact congrArg (c.val + ·) (rhs_ax0 (ix2 f t) q).symm
      | ⟨1, _⟩ => exact ((Nat.zero_add _).trans ((rhs_ax1 (ix2 f t) q).trans hk)).symm
    · refine (shapeCast_dropUnit_apply ![1028, 128] xr shapeCasts_S1x1028x128_S1028x128 _).trans (congrArg xr (funext fun a => Fin.ext ?_))
      match a with
      | ⟨0, _⟩ => rfl
      | ⟨1, _⟩ => rfl
      | ⟨2, _⟩ => rfl

/-- A row at filter `f`, position `t`. -/
theorem rowOut_apply (bias : Vec Ideal S64x1 .f32) (xr : Vec Ideal S1x1028x128 .f32)
    (w0 w1 w2 w3 w4 : Vec Ideal S1x64x128 .f32) (f : Fin 64) (t : Fin 1024) :
    rowOut (F := Ideal) bias xr w0 w1 w2 w3 w4 (ix3 (0 : Fin 1) f t)
      = ((∑ e : Fin 128, w0 (ix3 (0 : Fin 1) f e) * xr (ix3 (0 : Fin 1) (tapPos t 0) e))
        + (∑ e : Fin 128, w1 (ix3 (0 : Fin 1) f e) * xr (ix3 (0 : Fin 1) (tapPos t 1) e))
        + (∑ e : Fin 128, w2 (ix3 (0 : Fin 1) f e) * xr (ix3 (0 : Fin 1) (tapPos t 2) e))
        + (∑ e : Fin 128, w3 (ix3 (0 : Fin 1) f e) * xr (ix3 (0 : Fin 1) (tapPos t 3) e))
        + (∑ e : Fin 128, w4 (ix3 (0 : Fin 1) f e) * xr (ix3 (0 : Fin 1) (tapPos t 4) e)))
        + bias (ix2 f (0 : Fin 1)) := by
  unfold rowOut
  refine (shapeCast_addUnit_apply ![64, 1024] _ shapeCasts_S64x1024_S1x64x1024 _).trans ?_
  have hj : (fun a : Fin 2 => (ix3 (0 : Fin 1) f t : S1x64x1024.Idx) a.succ) = (ix2 f t : S64x1024.Idx) :=
    funext fun a => match a with | ⟨0, _⟩ => rfl | ⟨1, _⟩ => rfl
  rw [hj]
  have hb : broadcastTo S64x1024 (shapeCast S64x1 bias shapeCasts_S64x1_S64x1) broadcasts_S64x1_S64x1024 (ix2 f t)
      = bias (ix2 f (0 : Fin 1)) := by
    rw [shapeCast_self]
    exact broadcastTo_apply bias broadcasts_S64x1_S64x1024 (ix2 f t) (ix2 f (0 : Fin 1)) (fun a => match a with
      | ⟨0, _⟩ => by show f.val = if (64 : Nat) = 1 then 0 else f.val; rw [if_neg (by decide)]
      | ⟨1, _⟩ => by show 0 = if (1 : Nat) = 1 then 0 else t.val; rw [if_pos rfl])
  have h0 : tap (F := Ideal) xr w0 ![0, 0] slices_S1028x128_o0_0_S1024x128 (ix2 f t)
      = ∑ e : Fin 128, w0 (ix3 (0 : Fin 1) f e) * xr (ix3 (0 : Fin 1) (tapPos t 0) e) := tap_apply xr w0 0 _ f t
  have h1 : tap (F := Ideal) xr w1 ![1, 0] slices_S1028x128_o1_0_S1024x128 (ix2 f t)
      = ∑ e : Fin 128, w1 (ix3 (0 : Fin 1) f e) * xr (ix3 (0 : Fin 1) (tapPos t 1) e) := tap_apply xr w1 1 _ f t
  have h2 : tap (F := Ideal) xr w2 ![2, 0] slices_S1028x128_o2_0_S1024x128 (ix2 f t)
      = ∑ e : Fin 128, w2 (ix3 (0 : Fin 1) f e) * xr (ix3 (0 : Fin 1) (tapPos t 2) e) := tap_apply xr w2 2 _ f t
  have h3 : tap (F := Ideal) xr w3 ![3, 0] slices_S1028x128_o3_0_S1024x128 (ix2 f t)
      = ∑ e : Fin 128, w3 (ix3 (0 : Fin 1) f e) * xr (ix3 (0 : Fin 1) (tapPos t 3) e) := tap_apply xr w3 3 _ f t
  have h4 : tap (F := Ideal) xr w4 ![4, 0] slices_S1028x128_o4_0_S1024x128 (ix2 f t)
      = ∑ e : Fin 128, w4 (ix3 (0 : Fin 1) f e) * xr (ix3 (0 : Fin 1) (tapPos t 4) e) := tap_apply xr w4 4 _ f t
  simp only [addf_apply, broadcast_apply]
  rw [hb, h0, h1, h2, h3, h4]
  show ((((((Ideal.ofBits .f32 0x00000000#32 : EReal) + _) + _) + _) + _) + _) + _ = _
  rw [Ideal.ofBits_zero_f32, zero_add]

end Cert.KernelIdeal.ConvRow

end
-- ==== Proof.ConvBlock.lean ====
/-
  What the body leaves in the output block, as one function of the three input blocks.

  With `x0` the block of eight padded batch rows [8, 1028, 128], `x1` the five weight taps [5, 64, 128] and
  `x2` the bias column [64, 1], element `(r, f, t)` of the output block is

      blockFn x0 x1 x2 (r, f, t) = (Σ_{c < 5} Σ_{e < 128} x1 (c, f, e) · x0 (r, c + t, e)) + x2 (f, 0).

  The body stores the block as eight rows, row `r` being `ConvRow.rowOut` of the bias, of row `r` of `x0` and of
  the five taps, each loaded through a unit rectangle; every row agrees with `blockFn` under its rectangle
  (`piece_eq`), and the eight rectangles tile the block, so the block is `blockFn` everywhere (`out_eq`).
-/
import proofs.«160847_j54116587929806_1_alg».proof.Proof.ConvRow

set_option maxRecDepth 16384

noncomputable section

open scoped BigOperators

namespace Cert.KernelIdeal.ConvBlock

open Cert.KernelIdeal Cert.KernelIdeal.Gen Idealize.ShloMosaic Idealize.ShloMosaic.ValueIdx
open Cert.ConvSpec Cert.KernelIdeal.ConvRow

/-- The output block as a function of the input blocks, index by index. -/
def blockFn (x0 : Vec Ideal S8x1028x128 .f32) (x1 : Vec Ideal S5x64x128 .f32) (x2 : Vec Ideal S64x1 .f32) :
    S8x64x1024.Idx → EReal :=
  fun y => (∑ c : Fin 5, ∑ e : Fin 128, x1 (ix3 c (y 1) e) * x0 (ix3 (y 0) (tapPos (y 2) c) e)) + x2 (ix2 (y 1) (0 : Fin 1))

variable (x0 : Vec Ideal S8x1028x128 .f32) (x1 : Vec Ideal S5x64x128 .f32) (x2 : Vec Ideal S64x1 .f32)

/-- Tap `c` of the weights, loaded through its unit rectangle, reads `x1 (c, ·, ·)`. -/
theorem ld_tap (c : Fin 5) (inb : ∀ a, (![c.val, 0, 0] : Fin 3 → Nat) a + S1x64x128.size a ≤ S5x64x128.size a)
    (f : Fin 64) (e : Fin 128) :
    View.ld x1 (Rect.unit (s := S5x64x128) ![c.val, 0, 0] S1x64x128.size inb) (ix3 (0 : Fin 1) f e) = x1 (ix3 c f e) :=
  congrArg x1 (funext fun a => Fin.ext (by
    match a with
    | ⟨0, _⟩ => show c.val + 1 * 0 = c.val; omega
    | ⟨1, _⟩ => show 0 + 1 * f.val = f.val; omega
    | ⟨2, _⟩ => show 0 + 1 * e.val = e.val; omega))

/-- Batch row `r` of the block, loaded through its unit rectangle, reads `x0 (r, ·, ·)`. -/
theorem ld_row (r : Fin 8) (inb : ∀ a, (![r.val, 0, 0] : Fin 3 → Nat) a + S1x1028x128.size a ≤ S8x1028x128.size a)
    (p : Fin 1028) (e : Fin 128) :
    View.ld x0 (Rect.unit (s := S8x1028x128) ![r.val, 0, 0] S1x1028x128.size inb) (ix3 (0 : Fin 1) p e) = x0 (ix3 r p e) :=
  congrArg x0 (funext fun a => Fin.ext (by
    match a with
    | ⟨0, _⟩ => show r.val + 1 * 0 = r.val; omega
    | ⟨1, _⟩ => show 0 + 1 * p.val = p.val; omega
    | ⟨2, _⟩ => show 0 + 1 * e.val = e.val; omega))

/-- The bias column, loaded whole, reads `x2`. -/
theorem ld_bias (f : Fin 64) : View.ld x2 r0_0 (ix2 f (0 : Fin 1)) = x2 (ix2 f (0 : Fin 1)) :=
  congrArg x2 (funext fun a => Fin.ext (by
    match a with
    | ⟨0, _⟩ => show 0 + 1 * f.val = f.val; omega
    | ⟨1, _⟩ => show 0 + 1 * 0 = 0; omega))

/-- Row `r`'s store rectangle puts `(0, f, t)` at `(r, f, t)` of the block. -/
theorem emb_row (r : Fin 8) (inb : ∀ a, (![r.val, 0, 0] : Fin 3 → Nat) a + S1x64x1024.size a ≤ S8x64x1024.size a)
    (f : Fin 64) (t : Fin 1024) :
    (Rect.unit (s := S8x64x1024) ![r.val, 0, 0] S1x64x1024.size inb).emb (ix3 (0 : Fin 1) f t) = ix3 r f t :=
  funext fun a => Fin.ext (by
    match a with
    | ⟨0, _⟩ => show r.val + 1 * 0 = r.val; omega
    | ⟨1, _⟩ => show 0 + 1 * f.val = f.val; omega
    | ⟨2, _⟩ => show 0 + 1 * t.val = t.val; omega)

/-- Row `r` of the block, as the body computes it from its loads, is `blockFn` under the row's rectangle. -/
theorem piece_eq (r : Fin 8)
    (inbx : ∀ a, (![r.val, 0, 0] : Fin 3 → Nat) a + S1x1028x128.size a ≤ S8x1028x128.size a)
    (inbo : ∀ a, (![r.val, 0, 0] : Fin 3 → Nat) a + S1x64x1024.size a ≤ S8x64x1024.size a)
    (x : S1x64x1024.Idx) :
    rowOut (F := Ideal) (View.ld x2 r0_0) (View.ld x0 (Rect.unit (s := S8x1028x128) ![r.val, 0, 0] S1x1028x128.size inbx))
        (View.ld x1 r0_2) (View.ld x1 r0_3) (View.ld x1 r0_4) (View.ld x1 r0_5) (View.ld x1 r0_6) x
      = blockFn x0 x1 x2 ((Rect.unit (s := S8x64x1024) ![r.val, 0, 0] S1x64x1024.size inbo).emb x) := by
  obtain ⟨z, f, t, rfl⟩ : ∃ (z : Fin 1) (f : Fin 64) (t : Fin 1024), x = ix3 z f t := ⟨x 0, x 1, x 2, eq_ix3 x⟩
  obtain rfl : z = 0 := Subsingleton.elim _ _
  rw [rowOut_apply, emb_row]
  unfold blockFn
  rw [Fin.sum_univ_five]
  have t0 := fun e => ld_tap x1 0 inb_S5x64x128_S1x64x128_0_0_0 f e
  have t1 := fun e => ld_tap x1 1 inb_S5x64x128_S1x64x128_1_0_0 f e
  have t2 := fun e => ld_tap x1 2 inb_S5x64x128_S1x64x128_2_0_0 f e
  have t3 := fun e => ld_tap x1 3 inb_S5x64x128_S1x64x128_3_0_0 f e
  have t4 := fun e => ld_tap x1 4 inb_S5x64x128_S1x64x128_4_0_0 f e
  refine congrArg₂ (fun a b : EReal => a + b)
    (congrArg₂ (fun a b : EReal => a + b) (congrArg₂ (fun a b : EReal => a + b) (congrArg₂ (fun a b : EReal => a + b)
      (congrArg₂ (fun a b : EReal => a + b) ?_ ?_) ?_) ?_) ?_) (ld_bias x2 f)
  · exact Finset.sum_congr rfl fun e _ => congrArg₂ (fun a b : EReal => a * b) (t0 e) (ld_row x0 r inbx _ e)
  · exact Finset.sum_congr rfl fun e _ => congrArg₂ (fun a b : EReal => a * b) (t1 e) (ld_row x0 r inbx _ e)
  · exact Finset.sum_congr rfl fun e _ => congrArg₂ (fun a b : EReal => a * b) (t2 e) (ld_row x0 r inbx _ e)
  · exact Finset.sum_congr rfl fun e _ => congrArg₂ (fun a b : EReal => a * b) (t3 e) (ld_row x0 r inbx _ e)
  · exact Finset.sum_congr rfl fun e _ => congrArg₂ (fun a b : EReal => a * b) (t4 e) (ld_row x0 r inbx _ e)

/-- The output block after the body is `blockFn` of the input blocks: every store's payload is its row of
    `blockFn`, and the stores tile the block. -/
theorem out_eq : out0_3 (F := Ideal) x0 x1 x2 = blockFn x0 x1 x2 := by
  funext y
  unfold out0_3
  refine View.canon_apply_of_pieces (Val := Elt Ideal) (S := S8x64x1024) (e := .f32) (blockFn x0 x1 x2) _ ?_ y (cover0_3 _ _ _ _ _ _ _ _ y)
  intro p hp
  simp only [List.mem_cons, List.mem_nil_iff, or_false] at hp
  rcases hp with rfl | rfl | rfl | rfl | rfl | rfl | rfl | rfl
  · exact fun x => (congrFun (row7_eq _ _ _ _ _ _ _) x).trans (piece_eq x0 x1 x2 ⟨7, by decide⟩ inb_S8x1028x128_S1x1028x128_7_0_0 inb_S8x64x1024_S1x64x1024_7_0_0 x)
  · exact fun x => (congrFun (row6_eq _ _ _ _ _ _ _) x).trans (piece_eq x0 x1 x2 ⟨6, by decide⟩ inb_S8x1028x128_S1x1028x128_6_0_0 inb_S8x64x1024_S1x64x1024_6_0_0 x)
  · exact fun x => (congrFun (row5_eq _ _ _ _ _ _ _) x).trans (piece_eq x0 x1 x2 ⟨5, by decide⟩ inb_S8x1028x128_S1x1028x128_5_0_0 inb_S8x64x1024_S1x64x1024_5_0_0 x)
  · exact fun x => (congrFun (row4_eq _ _ _ _ _ _ _) x).trans (piece_eq x0 x1 x2 ⟨4, by decide⟩ inb_S8x1028x128_S1x1028x128_4_0_0 inb_S8x64x1024_S1x64x1024_4_0_0 x)
  · exact fun x => (congrFun (row3_eq _ _ _ _ _ _ _) x).trans (piece_eq x0 x1 x2 ⟨3, by decide⟩ inb_S8x1028x128_S1x1028x128_3_0_0 inb_S8x64x1024_S1x64x1024_3_0_0 x)
  · exact fun x => (congrFun (row2_eq _ _ _ _ _ _ _) x).trans (piece_eq x0 x1 x2 ⟨2, by decide⟩ inb_S8x1028x128_S1x1028x128_2_0_0 inb_S8x64x1024_S1x64x1024_2_0_0 x)
  · exact fun x => (congrFun (row1_eq _ _ _ _ _ _ _) x).trans (piece_eq x0 x1 x2 ⟨1, by decide⟩ inb_S8x1028x128_S1x1028x128_1_0_0 inb_S8x64x1024_S1x64x1024_1_0_0 x)
  · exact fun x => (congrFun (row0_eq _ _ _ _ _ _ _) x).trans (piece_eq x0 x1 x2 ⟨0, by decide⟩ inb_S8x1028x128_S1x1028x128_0_0_0 inb_S8x64x1024_S1x64x1024_0_0_0 x)

end Cert.KernelIdeal.ConvBlock

end
-- ==== Proof.ConvArray.lean ====
/-
  From blocks to the whole output array, and from the window arrays to the program's arguments.

  Grid point `t` (of eight) works on batch rows `8 t … 8 t + 7`: its input block is those rows of the padded
  input, its weight and bias blocks are the whole (small) arrays, and it writes back those rows of the output.
  So with `xp`, `wr`, `br` the three window arrays as the region finds them,

      arrFn xp wr br (n, f, t) = (Σ_c Σ_e wr (c, f, e) · xp (n, c + t, e)) + br (f, 0)

  is the one whole-array function whose block at every point is what the point writes back (`flushed_eq`),
  the eight blocks cover the batch axis (`covered`), and the output array ends at `arrFn` (`final`).
  The window arrays are host-side re-layouts of the arguments: `wr (c, f, e) = W (f, c · 128 + e)` (a reshape
  then a swap of the first two axes), `br (f, 0) = b f`, and `xp` the zero-padded input, left as the term it
  is; with these `arrFn` is `ConvSpec.conv` of the padded input (`arrFn_eq_conv`).
-/
import proofs.«160847_j54116587929806_1_alg».proof.Proof.Gen.KernelIdeal.Value
import proofs.«160847_j54116587929806_1_alg».proof.Proof.ConvBlock
import Idealize.ShloMosaic.Lib.StableHlo.Run

set_option maxRecDepth 16384

noncomputable section

open scoped BigOperators

namespace Cert.KernelIdeal.ConvArray

open Cert.KernelIdeal Cert.KernelIdeal.Gen Idealize.ShloMosaic Idealize.ShloMosaic.TcCoe Idealize.SL.Sem
open Idealize.ShloMosaic.ValueIdx
open Idealize.ShloMosaic.Pipeline (Dat)
open Cert.ConvSpec Cert.KernelIdeal.ConvBlock

/-- Batch row `r` of block `q`. -/
def batchOf (q r : Fin 8) : Fin 64 := ⟨q.val * 8 + r.val, by have := q.isLt; have := r.isLt; omega⟩

/-- The output array as a function of the three window arrays, index by index. -/
def arrFn (xp : S64x1028x128.Idx → EReal) (wr : S5x64x128.Idx → EReal) (br : S64x1.Idx → EReal) :
    S64x64x1024.Idx → EReal :=
  fun i => (∑ c : Fin 5, ∑ e : Fin 128, wr (ix3 c (i 1) e) * xp (ix3 (i 0) (tapPos (i 2) c) e)) + br (ix2 (i 1) (0 : Fin 1))

/-- A block that holds batch rows `8 q … 8 q + 7` of `xp`, beside the whole weights and bias, gives those rows of
    `arrFn`. -/
theorem blockFn_eq (xp : S64x1028x128.Idx → EReal) (wr : S5x64x128.Idx → EReal) (br : S64x1.Idx → EReal)
    (x0 : Vec Ideal S8x1028x128 .f32) (x1 : Vec Ideal S5x64x128 .f32) (x2 : Vec Ideal S64x1 .f32) (q : Fin 8)
    (h0 : ∀ (r : Fin 8) (p : Fin 1028) (e : Fin 128), x0 (ix3 r p e) = xp (ix3 (batchOf q r) p e))
    (h1 : x1 = wr) (h2 : x2 = br) (y : S8x64x1024.Idx) (i : S64x64x1024.Idx)
    (hi0 : (i 0).val = q.val * 8 + (y 0).val) (hi1 : (i 1).val = (y 1).val) (hi2 : (i 2).val = (y 2).val) :
    blockFn x0 x1 x2 y = arrFn xp wr br i := by
  subst h1 h2
  obtain ⟨r, f, t, rfl⟩ : ∃ (r : Fin 8) (f : Fin 64) (t : Fin 1024), y = ix3 r f t := ⟨y 0, y 1, y 2, eq_ix3 y⟩
  obtain ⟨n, f', t', rfl⟩ : ∃ (n : Fin 64) (f' : Fin 64) (t' : Fin 1024), i = ix3 n f' t' := ⟨i 0, i 1, i 2, eq_ix3 i⟩
  obtain rfl : n = batchOf q r := Fin.ext hi0
  obtain rfl : f' = f := Fin.ext hi1
  obtain rfl : t' = t := Fin.ext hi2
  unfold blockFn arrFn
  exact congrArg₂ (fun a b : EReal => a + b)
    (Finset.sum_congr rfl fun c _ => Finset.sum_congr rfl fun e _ =>
      congrArg₂ (fun a b : EReal => a * b) rfl (h0 r _ e)) rfl

variable (m : (ℓ : Loc nD τ sig) → Buf (Elt Ideal) ℓ) (ρ : Dev nD → PrngReg)

/-- The index maps, decided over the eight points: the input block moves with the output block along the batch axis
    and nowhere else; the weights and the bias stay at block zero; the output's batch block index is the point. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (1 : Fin 3) = 0 ∧ win0_3.index t (2 : Fin 3) = 0
    ∧ win0_3.index t (0 : Fin 3) < 8 ∧ win0_3.index t (0 : Fin 3) = t.val :=
  (by decide +kernel : ∀ t : Fin grid0.N, _)

/-- What point `t` writes back is block `t` of `arrFn` of the window arrays. -/
theorem flushed_eq (c : Dev nD) (t : Fin cfg0.N) :
    (dats m 0 c).flushed 3 t
      = ((cfg0.win 3).blk t).view.read (Elt Ideal) (arrFn (V m c main_v0) (V m c main_v2) (V m c main_v3)) := by
  rw [Cert.KernelIdeal.Value.flushed3,
    show out0_3 (iblk m c 0 t) (iblk m c 1 t) (iblk m c 2 t) = blockFn (iblk m c 0 t) (iblk m c 1 t) (iblk m c 2 t)
      from out_eq (iblk m c 0 t) (iblk m c 1 t) (iblk m c 2 t)]
  obtain ⟨e00, e01, e02, e10, e11, e12, e20, e21, e31, e32, hlt, -⟩ := idx_facts t
  funext j
  show blockFn (iblk m c 0 t) (iblk m c 1 t) (iblk m c 2 t) j
    = arrFn (V m c main_v0) (V m c main_v2) (V m c main_v3) (((cfg0.win 3).blk t).view.emb j)
  refine blockFn_eq (V m c main_v0) (V m c main_v2) (V m c main_v3) (iblk m c 0 t) (iblk m c 1 t) (iblk m c 2 t)
    ⟨win0_3.index t (0 : Fin 3), hlt⟩ ?_ ?_ ?_ j _ ?_ ?_ ?_
  · intro r p e
    show V m c main_v0 (((cfg0.win 0).blk t).view.emb (ix3 r p e)) = V m c main_v0 (ix3 _ p e)
    have hidx : ((cfg0.win 0).blk t).view.emb (ix3 r p e) = ix3 (batchOf ⟨win0_3.index t (0 : Fin 3), hlt⟩ r) p e := by
      funext a; apply Fin.ext
      match a with
      | ⟨0, _⟩ => show win0_0.index t (0 : Fin 3) * 8 + 1 * r.val = win0_3.index t (0 : Fin 3) * 8 + r.val; omega
      | ⟨1, _⟩ => show win0_0.index t (1 : Fin 3) * 1028 + 1 * p.val = p.val; omega
      | ⟨2, _⟩ => show win0_0.index t (2 : Fin 3) * 128 + 1 * e.val = e.val; omega
    rw [hidx]
  · funext y
    show V m c main_v2 (((cfg0.win 1).blk t).view.emb y) = V m c main_v2 y
    have hidx : ((cfg0.win 1).blk t).view.emb y = y := by
      funext a; apply Fin.ext
      match a with
      | ⟨0, _⟩ => show win0_1.index t (0 : Fin 3) * 5 + 1 * (y 0).val = (y 0).val; omega
      | ⟨1, _⟩ => show win0_1.index t (1 : Fin 3) * 64 + 1 * (y 1).val = (y 1).val; omega
      | ⟨2, _⟩ => show win0_1.index t (2 : Fin 3) * 128 + 1 * (y 2).val = (y 2).val; omega
    rw [hidx]
  · funext y
    show V m c main_v3 (((cfg0.win 2).blk t).view.emb y) = V m c main_v3 y
    have hidx : ((cfg0.win 2).blk t).view.emb y = y := by
      funext a; apply Fin.ext
      match a with
      | ⟨0, _⟩ => show win0_2.index t (0 : Fin 2) * 64 + 1 * (y 0).val = (y 0).val; omega
      | ⟨1, _⟩ => show win0_2.index t (1 : Fin 2) * 1 + 1 * (y 1).val = (y 1).val; omega
    rw [hidx]
  · show win0_3.index t (0 : Fin 3) * 8 + 1 * (j 0).val = win0_3.index t (0 : Fin 3) * 8 + (j 0).val; omega
  · show win0_3.index t (1 : Fin 3) * 64 + 1 * (j 1).val = (j 1).val; omega
  · show win0_3.index t (2 : Fin 3) * 1024 + 1 * (j 2).val = (j 2).val; omega

/-- An index of the output array is in point `t`'s block iff each coordinate is in the block's range on its axis. -/
theorem mem_blk (t : Fin cfg0.N) (i : S64x64x1024.Idx) :
    i ∈ ((cfg0.win 3).blk t).view.set ↔ ∀ a : Fin 3, win0_3.index t a * S8x64x1024.size a ≤ (i a).val
      ∧ (i a).val < win0_3.index t a * S8x64x1024.size a + S8x64x1024.size a := by
  show i ∈ ((View.whole main_v4).slice (win0_3.rect t)).set ↔ _
  rw [View.set_slice_whole, Rect.mem_set_unit]
  exact Iff.rfl

/-- Every index of the output array is in the block of the point its batch row belongs to. -/
theorem covered (i : S64x64x1024.Idx) :
    ∃ t : Fin cfg0.N, (cfg0.win 3).flush t = true ∧ i ∈ ((cfg0.win 3).blk t).view.set := by
  have h0 : (i 0).val < 64 := (i 0).isLt
  have h1 : (i 1).val < 64 := (i 1).isLt
  have h2 : (i 2).val < 1024 := (i 2).isLt
  have hN : (i 0).val / 8 < cfg0.N := by rw [show cfg0.N = 8 from N_0]; omega
  obtain ⟨-, -, -, -, -, -, -, -, e31, e32, -, e3t⟩ := idx_facts ⟨(i 0).val / 8, hN⟩
  refine ⟨⟨(i 0).val / 8, hN⟩, flush0_3 _, ?_⟩
  rw [mem_blk]
  intro a
  match a with
  | ⟨0, _⟩ =>
    show win0_3.index ⟨(i 0).val / 8, hN⟩ (0 : Fin 3) * 8 ≤ (i 0).val ∧ (i 0).val < win0_3.index ⟨(i 0).val / 8, hN⟩ (0 : Fin 3) * 8 + 8
    rw [e3t]; show (i 0).val / 8 * 8 ≤ (i 0).val ∧ (i 0).val < (i 0).val / 8 * 8 + 8; omega
  | ⟨1, _⟩ =>
    show win0_3.index ⟨(i 0).val / 8, hN⟩ (1 : Fin 3) * 64 ≤ (i 1).val ∧ (i 1).val < win0_3.index ⟨(i 0).val / 8, hN⟩ (1 : Fin 3) * 64 + 64
    omega
  | ⟨2, _⟩ =>
    show win0_3.index ⟨(i 0).val / 8, hN⟩ (2 : Fin 3) * 1024 ≤ (i 2).val ∧ (i 2).val < win0_3.index ⟨(i 0).val / 8, hN⟩ (2 : Fin 3) * 1024 + 1024
    omega

/-- The output array after the run is `arrFn` of the window arrays. -/
theorem final (c : Dev nD) :
    (dats m 0 c).arrAt 3 cfg0.N = arrFn (V m c main_v0) (V m c main_v2) (V m c main_v3) :=
  (dats m 0 c).arrAt_eq_of_cover 3 (arrFn (V m c main_v0) (V m c main_v2) (V m c main_v3))
    (fun t _ => flushed_eq m c t) covered

end Cert.KernelIdeal.ConvArray

end
-- ==== Proof.ConvRun.lean ====
/-
  The kernel's run, posted at `conv` of the padded input.

  Before the region @main lays the arguments out for the windows: the input is padded with two zero rows on each
  side of the position axis (`padded`: the term is kept closed, the reference builds the same one); the filter
  bank [64, 640] is reshaped to [64, 5, 128] and its first two axes swapped, so that `wr (c, f, e) = W (f, c · 128 + e)`
  (`taps_apply`); the bias [64] is reshaped to a column, `br (f, 0) = b f` (`biasCol_apply`). Through these the
  whole-array function of the blocks, `ConvArray.arrFn`, is `ConvSpec.conv` (`arrFn_eq_conv`), and the frame run
  with its output array named becomes the run to `conv` (`run`).
-/
import proofs.«160847_j54116587929806_1_alg».proof.Proof.ConvArray

set_option maxRecDepth 16384

noncomputable section

open scoped BigOperators

namespace Cert.KernelIdeal.ConvRun

open Cert.KernelIdeal Cert.KernelIdeal.Gen Idealize.ShloMosaic Idealize.ShloMosaic.TcCoe Idealize.SL.Sem
open Idealize.ShloMosaic.ValueIdx
open Cert.ConvSpec Cert.KernelIdeal.ConvArray

/-- The input padded with two zero rows on each side of the position axis. -/
def padded (x : S64x1024x128.Idx → EReal) : S64x1028x128.Idx → EReal :=
  pad S64x1028x128 ![0, 2, 0] ![0, 2, 0] ![0, 0, 0] x (sitofp (F := Ideal) .f32 (constantI S_ 32 0#32))
    pads_S64x1024x128_S64x1028x128_000_220_000 h_S_

/-- The filter bank laid out tap by tap. -/
def taps (W : S64x640.Idx → EReal) : S5x64x128.Idx → EReal :=
  transpose S5x64x128 [1, 0, 2] (shapeCast S64x5x128 W shapeCasts_S64x640_S64x5x128) transposes_S64x5x128_S5x64x128_1_0_2

/-- The bias as a column. -/
def biasCol (b : S64.Idx → EReal) : S64x1.Idx → EReal := shapeCast S64x1 b shapeCasts_S64_S64x1

/-- Tap `c`, filter `f`, lane `e` of the laid-out bank is column `c · 128 + e` of filter `f`. -/
theorem taps_apply (W : S64x640.Idx → EReal) (c : Fin 5) (f : Fin 64) (e : Fin 128) :
    taps W (ix3 c f e) = W (ix2 f (col c e)) := by
  unfold taps
  refine (transpose_apply [1, 0, 2] _ transposes_S64x5x128_S5x64x128_1_0_2 (ix3 c f e) (ix3 f c e) (fun b => match b with
    | ⟨0, _⟩ => rfl
    | ⟨1, _⟩ => rfl
    | ⟨2, _⟩ => rfl)).trans ?_
  refine shapeCast_apply W shapeCasts_S64x640_S64x5x128 (ix3 f c e) (ix2 f (col c e)) ?_
  rw [Shape.rowMajor_val_two, Shape.rowMajor_val_three]
  show f.val * 640 + (c.val * 128 + e.val) = (f.val * 5 + c.val) * 128 + e.val
  omega

/-- The column's entry `(f, 0)` is `b f`. -/
theorem biasCol_apply (b : S64.Idx → EReal) (f : Fin 64) : biasCol b (ix2 f (0 : Fin 1)) = b (ix1 f) := by
  unfold biasCol
  refine shapeCast_apply b shapeCasts_S64_S64x1 (ix2 f (0 : Fin 1)) (ix1 f) ?_
  rw [Shape.rowMajor_val_one, Shape.rowMajor_val_two]
  show f.val = f.val * 1 + 0
  omega

/-- Over the laid-out arguments the blocks' whole-array function is the convolution. -/
theorem arrFn_eq_conv (xp : S64x1028x128.Idx → EReal) (W : S64x640.Idx → EReal) (b : S64.Idx → EReal) :
    arrFn xp (taps W) (biasCol b) = conv xp W b := by
  funext i
  unfold arrFn conv
  exact congrArg₂ (fun a b : EReal => a + b)
    (Finset.sum_congr rfl fun c _ => Finset.sum_congr rfl fun e _ =>
      congrArg₂ (fun a b : EReal => a * b) (taps_apply W c (i 1) e) rfl) (biasCol_apply b (i 1))

variable (m : (ℓ : Loc nD τ sig) → Buf (Elt Ideal) ℓ) (ρ : Dev nD → PrngReg)

/-- The region finds the padded input in window 0's array. -/
theorem V_padded (c : Dev nD) :
    (V m c main_v0 : S64x1028x128.Idx → EReal) = padded (m ((c : Thread nD τ).loc main_arg0)) := by
  dsimp only [V]
  simp only [hostOps0, hostOps0_1, hostOps0_2, List.flatten_cons, List.flatten_nil, List.append_nil, List.cons_append,
    List.nil_append]
  after_results
  rfl

/-- The region finds the laid-out filter bank in window 1's array. -/
theorem V_taps (c : Dev nD) :
    (V m c main_v2 : S5x64x128.Idx → EReal) = taps (m ((c : Thread nD τ).loc main_arg1)) := by
  dsimp only [V]
  simp only [hostOps0, hostOps0_1, hostOps0_2, List.flatten_cons, List.flatten_nil, List.append_nil, List.cons_append,
    List.nil_append]
  after_results
  rfl

/-- The region finds the bias column in window 2's array. -/
theorem V_biasCol (c : Dev nD) :
    (V m c main_v3 : S64x1.Idx → EReal) = biasCol (m ((c : Thread nD τ).loc main_arg2)) := by
  dsimp only [V]
  simp only [hostOps0, hostOps0_1, hostOps0_2, List.flatten_cons, List.flatten_nil, List.append_nil, List.cons_append,
    List.nil_append]
  after_results
  rfl

/-- The output array after the run is the convolution of the padded input with the filter bank, plus the bias. -/
theorem final_conv (c : Dev nD) :
    (dats m 0 c).arrAt 3 cfg0.N
      = conv (padded (m ((c : Thread nD τ).loc main_arg0))) (m ((c : Thread nD τ).loc main_arg1))
          (m ((c : Thread nD τ).loc main_arg2)) := by
  rw [final m c, V_padded m c, V_taps m c, V_biasCol m c, arrFn_eq_conv]

/-- Every weakly fair execution of the kernel's @main terminates with the result array at `conv` of the padded input
    and the arguments unchanged. -/
theorem run : θ_run defs (onTc (τ := τ) (main (F := Ideal))) ⟨m, fun _ => 0, ρ⟩ fun r => ∀ c : Dev nD,
      r.2.mem ((c : Thread nD τ).loc main_v4)
        = conv (padded (m ((c : Thread nD τ).loc main_arg0))) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_conv m c), (h c).2⟩)
    (Cert.KernelIdeal.Value.run_blocks m ρ)

end Cert.KernelIdeal.ConvRun

end
-- ==== Proof.RefConv.lean ====
/-
  The reference computes `conv` of the padded input.

  Its `dot_general` contracts the 640 flat columns of `W (f, k)` against `Z (n, t, k)`, where `Z` is the
  position-by-position concatenation of the five shifted views of the padded input: column `k = c * 128 + e`
  of `Z (n, t, ·)` is lane `e` of padded row `c + t`. Splitting the contraction into taps and lanes
  (`ConvSpec.sum_col`) and reading the reshape, the concatenation, the broadcasts and the slices at an index
  gives the double sum of `conv`; the transpose only swaps the batch and filter coordinates, and the two
  broadcasts of the bias read `b f`.
-/
import proofs.«160847_j54116587929806_1_alg».proof.Proof.Gen.ReferenceIdeal.Read
import proofs.«160847_j54116587929806_1_alg».proof.Proof.ConvSpec

noncomputable section

open scoped BigOperators

namespace Cert.ReferenceIdeal.ConvRead

open Cert.ReferenceIdeal Cert.ReferenceIdeal.Gen Cert.ReferenceIdeal.Read Idealize.ShloMosaic Idealize.ShloMosaic.ValueIdx
open Cert.ConvSpec

/-- The reshape [64, 1024, 5, 128] → [64, 1024, 640] puts tap `c`, lane `e` at flat column `c * 128 + e`. -/
theorem reshape_idx (n : Fin 64) (t : Fin 1024) (c : Fin 5) (e : Fin 128) :
    idx_main_v12 (ix3 n t (col c e)) = ix4 n t c e := by
  have hn := n.isLt; have ht := t.isLt; have hc := c.isLt; have he := e.isLt
  funext a
  match a with
  | ⟨0, _⟩ => exact Fin.ext (by show ((n.val * 1024 + t.val) * 640 + (c.val * 128 + e.val)) / 655360 = n.val; omega)
  | ⟨1, _⟩ => exact Fin.ext (by show ((n.val * 1024 + t.val) * 640 + (c.val * 128 + e.val)) / 640 % 1024 = t.val; omega)
  | ⟨2, _⟩ => exact Fin.ext (by show ((n.val * 1024 + t.val) * 640 + (c.val * 128 + e.val)) / 128 % 5 = c.val; omega)
  | ⟨3, _⟩ => exact Fin.ext (by show ((n.val * 1024 + t.val) * 640 + (c.val * 128 + e.val)) % 128 = e.val; omega)

/-- Off the joined axis a piece's index and the concatenation's agree. -/
theorem off_axis (n : Fin 64) (t : Fin 1024) (c : Fin 5) (e : Fin 128) :
    ∀ a : Fin S64x1024x1x128.rank, a.cast (rfl : S64x1024x1x128.rank = S64x1024x5x128.rank) ≠ (2 : Fin S64x1024x5x128.rank) →
      ((ix4 n t (0 : Fin 1) e : S64x1024x1x128.Idx) a).val = ((ix4 n t c e : S64x1024x5x128.Idx) (a.cast rfl)).val
  | ⟨0, _⟩, _ => rfl
  | ⟨1, _⟩, _ => rfl
  | ⟨2, _⟩, h => absurd rfl h
  | ⟨3, _⟩, _ => rfl

variable (x0 : (⟨S64x1024x128, .f32⟩ : BufTy).Contents (Elt Ideal))

/-- Slot `c` of the concatenation is the padded input shifted by `c` rows: its element `(n, t, c, e)` is lane
    `e` of padded row `c + t` of batch `n`. -/
theorem cat_apply (n : Fin 64) (t : Fin 1024) (c : Fin 5) (e : Fin 128) :
    val_main_v11 (F := Ideal) x0 (ix4 n t c e) = val_main_v0 (F := Ideal) x0 (ix3 n (tapPos t c) e) := by
  unfold val_main_v11
  match c with
  | ⟨0, _⟩ =>
    refine (concatenate_apply_piece (2 : Fin S64x1024x5x128.rank) _ _ _ 0 (by simp) S64x1024x1x128 _ rfl rfl 0 rfl
      (ix4 n t (0 : Fin 1) e) (off_axis n t _ e) rfl).trans ?_
    rw [val_main_v6_apply, val_main_v1_apply]
    exact congrArg _ (funext fun a => match a with
      | ⟨0, _⟩ => rfl
      | ⟨1, _⟩ => Fin.ext (by show t.val = 0 + t.val; omega)
      | ⟨2, _⟩ => rfl)
  | ⟨1, _⟩ =>
    refine (concatenate_apply_piece (2 : Fin S64x1024x5x128.rank) _ _ _ 1 (by simp) S64x1024x1x128 _ rfl rfl 1 rfl
      (ix4 n t (0 : Fin 1) e) (off_axis n t _ e) rfl).trans ?_
    rw [val_main_v7_apply, val_main_v2_apply]
    exact congrArg _ (funext fun a => match a with
      | ⟨0, _⟩ => rfl
      | ⟨1, _⟩ => rfl
      | ⟨2, _⟩ => rfl)
  | ⟨2, _⟩ =>
    refine (concatenate_apply_piece (2 : Fin S64x1024x5x128.rank) _ _ _ 2 (by simp) S64x1024x1x128 _ rfl rfl 2 rfl
      (ix4 n t (0 : Fin 1) e) (off_axis n t _ e) rfl).trans ?_
    rw [val_main_v8_apply, val_main_v3_apply]
    exact congrArg _ (funext fun a => match a with
      | ⟨0, _⟩ => rfl
      | ⟨1, _⟩ => rfl
      | ⟨2, _⟩ => rfl)
  | ⟨3, _⟩ =>
    refine (concatenate_apply_piece (2 : Fin S64x1024x5x128.rank) _ _ _ 3 (by simp) S64x1024x1x128 _ rfl rfl 3 rfl
      (ix4 n t (0 : Fin 1) e) (off_axis n t _ e) rfl).trans ?_
    rw [val_main_v9_apply, val_main_v4_apply]
    exact congrArg _ (funext fun a => match a with
      | ⟨0, _⟩ => rfl
      | ⟨1, _⟩ => rfl
      | ⟨2, _⟩ => rfl)
  | ⟨4, _⟩ =>
    refine (concatenate_apply_piece (2 : Fin S64x1024x5x128.rank) _ _ _ 4 (by simp) S64x1024x1x128 _ rfl rfl 4 rfl
      (ix4 n t (0 : Fin 1) e) (off_axis n t _ e) rfl).trans ?_
    rw [val_main_v10_apply, val_main_v5_apply]
    exact congrArg _ (funext fun a => match a with
      | ⟨0, _⟩ => rfl
      | ⟨1, _⟩ => rfl
      | ⟨2, _⟩ => rfl)

/-- The reference's result, as a function of its three arguments, is `conv` of the padded input. -/
theorem ref_eq_conv (x1 : (⟨S64x640, .f32⟩ : BufTy).Contents (Elt Ideal)) (x2 : (⟨S64, .f32⟩ : BufTy).Contents (Elt Ideal)) :
    val_main_v17 (F := Ideal) x0 x1 x2 = conv (val_main_v0 (F := Ideal) x0) x1 x2 := by
  funext i
  obtain ⟨n, f, t, rfl⟩ : ∃ (n : Fin 64) (f : Fin 64) (t : Fin 1024), i = ix3 n f t := ⟨i 0, i 1, i 2, eq_ix3 i⟩
  rw [val_main_v17_apply, val_main_v14_apply, val_main_v16_apply, val_main_v15_apply, val_main_v13_apply, sum_col]
  refine congrArg₂ (fun a b : EReal => a + b) ?_ ?_
  · refine Finset.sum_congr rfl fun c _ => Finset.sum_congr rfl fun e _ => ?_
    have hl : lidx_main_v13 (idx_main_v14 (ix3 n f t)) (col c e) = ix2 f (col c e) :=
      funext fun a => match a with | ⟨0, _⟩ => rfl | ⟨1, _⟩ => rfl
    have hr : ridx_main_v13 (idx_main_v14 (ix3 n f t)) (col c e) = ix3 n t (col c e) :=
      funext fun a => match a with | ⟨0, _⟩ => rfl | ⟨1, _⟩ => rfl | ⟨2, _⟩ => rfl
    rw [hl, hr, val_main_v12_apply, reshape_idx, cat_apply]
  · exact congrArg x2 (funext fun a => match a with | ⟨0, _⟩ => rfl)

end Cert.ReferenceIdeal.ConvRead

end
-- ==== Proof.lean ====
/-
  A five-tap convolution along the position axis, full height over the 128 embedding lanes, with bias:

      out (n, f, t) = (Σ_{c < 5} Σ_{e < 128} W (f, c · 128 + e) · xp (n, c + t, e)) + b f,

  where `xp` is the input padded with two zero rows on each side of the position axis (`ConvSpec.conv`).

  The kernel computes it block by block: eight batch rows per grid point, and for each row five products of a
  weight tap [64, 128] with a shifted window [1024, 128] of the padded row, contracted over the lanes and added
  up, plus the bias column. On the extended reals the narrowing of the operands is the identity and a product
  into a zero accumulator is the plain sum of products, so each row is the double sum over taps and lanes
  (Proof/ConvRow.lean), the eight rows tile the block (Proof/ConvBlock.lean), the eight blocks tile the batch axis
  (Proof/ConvArray.lean), and the host-side re-layout of the filter bank and the bias gives `conv`
  (Proof/ConvRun.lean).

  The reference gathers, for every position, the five shifted rows into one vector of 640 columns and contracts it
  with the filter bank in one product. A sum over the 640 columns is the sum over taps of the sum over lanes
  (`ConvSpec.sum_col`), and column `c · 128 + e` of the gathered vector is lane `e` of padded row `c + t`
  (Proof/RefConv.lean): the same double sum. Both programs pad the input by the same operation, so the padded input
  is one term on both sides and is never opened.

  The only laws used are re-indexing and regrouping of finite sums and `0 + a = a`, which hold on the extended
  reals for every input; the finiteness precondition is not needed for the value. The ideal pass rewrote nothing,
  so `preserves` is trivial. The kernel programs' frames are the generated class-A frames; the reference's frame is
  its generated run with the result dropped.
-/
import proofs.«160847_j54116587929806_1_alg».proof.Defs
import proofs.«160847_j54116587929806_1_alg».proof.Proof.Gen.Kernel
import proofs.«160847_j54116587929806_1_alg».proof.Proof.Gen.Kernel.Skeleton
import proofs.«160847_j54116587929806_1_alg».proof.Proof.Gen.Kernel.Launch
import proofs.«160847_j54116587929806_1_alg».proof.Proof.Gen.Kernel.Points
import proofs.«160847_j54116587929806_1_alg».proof.Proof.Gen.Kernel.Frame
import proofs.«160847_j54116587929806_1_alg».proof.Proof.Gen.KernelIdeal
import proofs.«160847_j54116587929806_1_alg».proof.Proof.Gen.KernelIdeal.Skeleton
import proofs.«160847_j54116587929806_1_alg».proof.Proof.Gen.KernelIdeal.Launch
import proofs.«160847_j54116587929806_1_alg».proof.Proof.Gen.KernelIdeal.Points
import proofs.«160847_j54116587929806_1_alg».proof.Proof.Gen.KernelIdeal.Frame
import proofs.«160847_j54116587929806_1_alg».proof.Proof.Gen.ReferenceIdeal
import proofs.«160847_j54116587929806_1_alg».proof.Proof.Gen.Pre_finite_inputs
import proofs.«160847_j54116587929806_1_alg».proof.Proof.Gen.KernelIdeal.Value
import proofs.«160847_j54116587929806_1_alg».proof.Proof.Gen.ReferenceIdeal.Run
import proofs.«160847_j54116587929806_1_alg».proof.Proof.Gen.ReferenceIdeal.Read
import proofs.«160847_j54116587929806_1_alg».proof.Proof.ConvRun
import proofs.«160847_j54116587929806_1_alg».proof.Proof.RefConv
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the arguments, both programs end with the result array at
    `conv` of the padded input, the filter bank and the bias. -/
theorem algebraic : Cert.algebraic_KernelIdeal_ReferenceIdeal := by
  intro m ρ m' ρ' _ hagree
  refine ⟨_, Cert.KernelIdeal.ConvRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v17_eq _ _ _).trans (Cert.ReferenceIdeal.ConvRead.ref_eq_conv _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
